-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x768 : Shape := ⟨2, ![131072, 768]⟩
abbrev S_ : Shape := ⟨0, ![]⟩

class Facts : Prop where
  bcast_S_S131072x768 : S_.BroadcastsInDim S131072x768 (![] : Fin 0 → Fin S131072x768.rank)
  reducesTo_S131072x768_S_d0_1 : S131072x768.ReducesTo [0, 1] S_
  h_S_ : 0 < S_.numel

variable [Facts]

def fn {F : FTy → Type} [FloatOps F] (main_arg0 : FVec F S131072x768 .f32) (main_arg1 : FVec F S131072x768 .f32) : IVec S_ 1 :=
  let main_v0 : FVec F S131072x768 .f32 := Host.absf main_arg0
  let main_cst : FVec F S_ .f32 := constant S_ .f32 0x7F800000#32
  let main_v1 : FVec F S131072x768 .f32 := broadcastInDim S131072x768 ![] bcast_S_S131072x768 main_cst
  let main_v2 : IVec S131072x768 1 := cmpf .olt main_v0 main_v1
  let main_c : IVec S_ 1 := constantI S_ 1 1#1
  let main_v3 : IVec S_ 1 := (fun x v => Host.reduce IntOp.andi x v reducesTo_S131072x768_S_d0_1 h_S_) main_v2 main_c
  let main_v4 : FVec F S131072x768 .f32 := Host.absf main_arg1
  let main_cst_0 : FVec F S_ .f32 := constant S_ .f32 0x7F800000#32
  let main_v5 : FVec F S131072x768 .f32 := broadcastInDim S131072x768 ![] bcast_S_S131072x768 main_cst_0
  let main_v6 : IVec S131072x768 1 := cmpf .olt main_v4 main_v5
  let main_c_1 : IVec S_ 1 := constantI S_ 1 1#1
  let main_v7 : IVec S_ 1 := (fun x v => Host.reduce IntOp.andi x v reducesTo_S131072x768_S_d0_1 h_S_) main_v6 main_c_1
  let main_v8 : IVec S_ 1 := andi main_v3 main_v7
  main_v8
-- ==== Kernel.lean ====
abbrev S131072x768 : Shape := ⟨2, ![131072, 768]⟩
abbrev S2048x768 : Shape := ⟨2, ![2048, 768]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S131072x768, .f32⟩
  | .hbm, ⟨1, _⟩ => ⟨S131072x768, .f32⟩
  | .hbm, ⟨2, _⟩ => ⟨S131072x768, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S2048x768, .f32⟩
  | .local _ .vmem, ⟨5, _⟩ => ⟨S2048x768, .f32⟩
  | _, _ => ⟨S131072x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x768_S2048x768_0_0 : ∀ a, (![0, 0] : Fin 2 → Nat) a + S2048x768.size a ≤ S2048x768.size a
  h_S2048x768 : 0 < S2048x768.numel
  reduces_S2048x768_S2048 : S2048x768.Reduces [1] S2048
  shapeCasts_S2048_S2048x1 : S2048.ShapeCasts S2048x1
  broadcasts_S2048x1_S2048x768 : S2048x1.Broadcasts S2048x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S131072x768.size a
  hwx0_0 : ∀ i : grid0.Coords, EltTy.bits .f32 = 32 ∨ (Rect.block (s := S131072x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S131072x768.size a
  hwx0_1 : ∀ i : grid0.Coords, EltTy.bits .f32 = 32 ∨ (Rect.block (s := S131072x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S131072x768.size a
  hwx0_2 : ∀ i : grid0.Coords, EltTy.bits .f32 = 32 ∨ (Rect.block (s := S131072x768) S2048x768.size (cc0_transform_2 i) (hinb0_2 i)).WholeWords (EltTy.packing .f32)

variable [Facts₀]

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x768 : Shape := ⟨2, ![131072, 768]⟩
abbrev S_ : Shape := ⟨0, ![]⟩
abbrev S131072 : Shape := ⟨1, ![131072]⟩
abbrev S1x131072 : Shape := ⟨2, ![1, 131072]⟩
abbrev S2x131072 : Shape := ⟨2, ![2, 131072]⟩
abbrev S131072x1 : Shape := ⟨2, ![131072, 1]⟩

abbrev nBuf : Space → Nat
  | .hbm => 41
  | .vmem => 0
  | .smem => 0
  | _ => 0

abbrev bufTy : (tb : Table) → Fin (tcTables nBuf tb) → BufTy
  | .hbm, ⟨0, _⟩ => ⟨S131072x768, .f32⟩
  | .hbm, ⟨1, _⟩ => ⟨S131072x768, .f32⟩
  | .hbm, ⟨2, _⟩ => ⟨S131072x768, .f32⟩
  | .hbm, ⟨3, _⟩ => ⟨S_, .f32⟩
  | .hbm, ⟨4, _⟩ => ⟨S131072x768, .f32⟩
  | .hbm, ⟨5, _⟩ => ⟨S131072x768, .f32⟩
  | .hbm, ⟨6, _⟩ => ⟨S131072x768, .f32⟩
  | .hbm, ⟨7, _⟩ => ⟨S_, .f32⟩
  | .hbm, ⟨8, _⟩ => ⟨S131072, .f32⟩
  | .hbm, ⟨9, _⟩ => ⟨S_, .f32⟩
  | .hbm, ⟨10, _⟩ => ⟨S131072, .f32⟩
  | .hbm, ⟨11, _⟩ => ⟨S131072, .f32⟩
  | .hbm, ⟨12, _⟩ => ⟨S1x131072, .f32⟩
  | .hbm, ⟨13, _⟩ => ⟨S1x131072, .f32⟩
  | .hbm, ⟨14, _⟩ => ⟨S2x131072, .f32⟩
  | .hbm, ⟨15, _⟩ => ⟨S_, .f32⟩
  | .hbm, ⟨16, _⟩ => ⟨S131072, .f32⟩
  | .hbm, ⟨17, _⟩ => ⟨S_, .f32⟩
  | .hbm, ⟨18, _⟩ => ⟨S131072, .f32⟩
  | .hbm, ⟨19, _⟩ => ⟨S131072, .f32⟩
  | .hbm, ⟨20, _⟩ => ⟨S1x131072, .f32⟩
  | .hbm, ⟨21, _⟩ => ⟨S2x131072, .f32⟩
  | .hbm, ⟨22, _⟩ => ⟨S2x131072, .f32⟩
  | .hbm, ⟨23, _⟩ => ⟨S2x131072, .f32⟩
  | .hbm, ⟨24, _⟩ => ⟨S_, .f32⟩
  | .hbm, ⟨25, _⟩ => ⟨S131072, .f32⟩
  | .hbm, ⟨26, _⟩ => ⟨S1x131072, .f32⟩
  | .hbm, ⟨27, _⟩ => ⟨S2x131072, .f32⟩
  | .hbm, ⟨28, _⟩ => ⟨S2x131072, .f32⟩
  | .hbm, ⟨29, _⟩ => ⟨S1x131072, .f32⟩
  | .hbm, ⟨30, _⟩ => ⟨S131072, .f32⟩
  | .hbm, ⟨31, _⟩ => ⟨S131072x1, .f32⟩
  | .hbm, ⟨32, _⟩ => ⟨S131072x768, .f32⟩
  | .hbm, ⟨33, _⟩ => ⟨S131072x768, .f32⟩
  | .hbm, ⟨34, _⟩ => ⟨S_, .f32⟩
  | .hbm, ⟨35, _⟩ => ⟨S131072, .f32⟩
  | .hbm, ⟨36, _⟩ => ⟨S131072, .f32⟩
  | .hbm, ⟨37, _⟩ => ⟨S131072x1, .f32⟩
  | .hbm, ⟨38, _⟩ => ⟨S131072x768, .f32⟩
  | .hbm, ⟨39, _⟩ => ⟨S131072x768, .f32⟩
  | .hbm, ⟨40, _⟩ => ⟨S131072x768, .f32⟩
  | _, _ => ⟨S131072x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  bcast_S_S131072x768 : S_.BroadcastsInDim S131072x768 (![] : Fin 0 → Fin S131072x768.rank)
  reducesTo_S131072x768_S131072_d1 : S131072x768.ReducesTo [1] S131072
  h_S_ : 0 < S_.numel
  bcast_S_S131072 : S_.BroadcastsInDim S131072 (![] : Fin 0 → Fin S131072.rank)
  bcast_S131072_S1x131072_1 : S131072.BroadcastsInDim S1x131072 (![1] : Fin 1 → Fin S1x131072.rank)
  concatenates_S1x131072_S1x131072_S2x131072_d0 : Shape.Concatenates [S1x131072, S1x131072] S2x131072 0
  reducesTo_S2x131072_S131072_d0 : S2x131072.ReducesTo [0] S131072
  bcast_S1x131072_S2x131072_0_1 : S1x131072.BroadcastsInDim S2x131072 (![0, 1] : Fin 2 → Fin S2x131072.rank)
  slices_S2x131072_S1x131072_0_0 : S2x131072.Slices ![0, 0] S1x131072
  shapeCasts_S1x131072_S131072 : S1x131072.ShapeCasts S131072
  bcast_S131072_S131072x1_0 : S131072.BroadcastsInDim S131072x1 (![0] : Fin 1 → Fin S131072x1.rank)
  bcast_S131072x1_S131072x768_0_1 : S131072x1.BroadcastsInDim S131072x768 (![0, 1] : Fin 2 → Fin S131072x768.rank)

variable [Facts₀]

class Facts : Prop extends Facts₀ where

variable [Facts]
-- ==== Proof.Blend.lean ====
/-
  The fused row blend, as one function of the two feature arrays.

  Row `r` of the two arrays has the log-responsibility `a r = -1/2 · Σ_k (1/2 · (x r k - y r k))²`. Both programs
  form the two-way softmax of the pair `(a r, a r)` and keep its first entry,
  `w r = e^(a r - a r) / (e^(a r - a r) + e^(a r - a r))`, and return `w r · x r q + (1 - w r) · y r q`.
  Nothing here evaluates `w`: the two programs spell the same expression, and the only laws used to join them are
  that the maximum of two equal extended reals from `-∞` is that value, and `0 + s = s`.
-/
import Idealize.ShloMosaic.PureOps.Ideal
import Idealize.ShloMosaic.PureOps.Ideal.Laws
import Idealize.ShloMosaic.Lib.ValueIdx

noncomputable section

namespace Cert.Blend

open Idealize.ShloMosaic Idealize.ShloMosaic.ValueIdx

/-- The first entry of the softmax of the pair `(a, a)`, spelt as the programs compute it. -/
def weight (a : EReal) : EReal :=
  Ideal.div (Ideal.exp (a - a)) (Ideal.exp (a - a) + Ideal.exp (a - a))

/-- Row `r`'s sum of squares of half the difference of the two rows. -/
def halfSq {R : ℕ} (x y : (⟨2, ![R, 768]⟩ : Shape).Idx → EReal) (r : Fin R) : EReal :=
  ∑ k : Fin 768, ((Ideal.ofBits .f32 0x3F000000#32 : EReal) * (x (ix2 r k) - y (ix2 r k)))
      * ((Ideal.ofBits .f32 0x3F000000#32 : EReal) * (x (ix2 r k) - y (ix2 r k)))

/-- Row `r`'s log-responsibility: minus one half of that sum. -/
def logResp {R : ℕ} (x y : (⟨2, ![R, 768]⟩ : Shape).Idx → EReal) (r : Fin R) : EReal :=
  (Ideal.ofBits .f32 0xBF000000#32 : EReal) * halfSq x y r

/-- The blend: each entry of `x` and `y` weighted by its row's softmax weight and its complement to one. -/
def fused {R : ℕ} (x y : (⟨2, ![R, 768]⟩ : Shape).Idx → EReal) : (⟨2, ![R, 768]⟩ : Shape).Idx → EReal := fun i =>
  weight (logResp x y (i 0)) * x i + ((Ideal.ofBits .f32 0x3F800000#32 : EReal) - weight (logResp x y (i 0))) * y i

theorem fused_ix2 {R : ℕ} (x y : (⟨2, ![R, 768]⟩ : Shape).Idx → EReal) (r : Fin R) (q : Fin 768) :
    fused x y (ix2 r q)
      = weight (logResp x y r) * x (ix2 r q) + ((Ideal.ofBits .f32 0x3F800000#32 : EReal) - weight (logResp x y r)) * y (ix2 r q) := rfl

/-- The blend at `(r, q)` depends only on row `r` of the two arrays: two pairs of arrays, of any heights, that agree
    along a row of each give the same value there. -/
theorem fused_congr {R R' : ℕ} (x y : (⟨2, ![R, 768]⟩ : Shape).Idx → EReal) (x' y' : (⟨2, ![R', 768]⟩ : Shape).Idx → EReal)
    (r : Fin R) (r' : Fin R') (q : Fin 768)
    (hx : ∀ k : Fin 768, x (ix2 r k) = x' (ix2 r' k)) (hy : ∀ k : Fin 768, y (ix2 r k) = y' (ix2 r' k)) :
    fused x y (ix2 r q) = fused x' y' (ix2 r' q) := by
  have hs : halfSq x y r = halfSq x' y' r' := by
    unfold halfSq
    exact Finset.sum_congr rfl fun k _ => by rw [hx k, hy k]
  rw [fused_ix2, fused_ix2]
  unfold logResp
  rw [hs, hx q, hy q]

/-- The maximum of a pair of equal entries, folded from `-∞`, is the entry. -/
theorem fold_max_pair (a : EReal) (f : Fin 2 → EReal) (hf : ∀ k, f k = a) :
    (Finset.univ : Finset (Fin 2)).fold max (⊥ : EReal) f = a := by
  refine le_antisymm ?_ ?_
  · exact (Finset.fold_max_le _).2 ⟨bot_le, fun k _ => (hf k).le⟩
  · exact (Finset.le_fold_max _).2 (Or.inr ⟨0, Finset.mem_univ _, (hf 0).ge⟩)

/-- The word `0xFF800000` denotes `-∞`. -/
theorem ofBits_negInf : (Ideal.ofBits .f32 0xFF800000#32 : EReal) = ⊥ := by
  simp [Ideal.ofBits, Ideal.ieee]

end Cert.Blend

end
-- ==== Proof.KernelBlock.lean ====
/-
  What one grid point leaves in the output block: for the two loaded blocks `P0`, `P1` (2048 rows of 768), entry
  `(p, q)` is the blend of row `p` of the two blocks. The body reduces each row's squares to the row's
  log-responsibility, forms the two-way softmax weight from it, and broadcasts the weight along the row; read at an
  index, every copy of the reduced value is the row's `Fin 768`-indexed sum.
-/
import proofs.«170354_j51127290692324_1_alg».proof.Proof.Gen.KernelIdeal.Value
import proofs.«170354_j51127290692324_1_alg».proof.Proof.Blend
import Idealize.ShloMosaic.PureOps.Ideal.Laws
import Idealize.ShloMosaic.Lib.ValueIdx

noncomputable section

namespace Cert.KernelIdeal.Blend

open Cert.KernelIdeal Cert.KernelIdeal.Gen Idealize.ShloMosaic Idealize.ShloMosaic.ValueIdx

/-- The row reduction of the squared half-differences, at row `p`, is the sum over the row's 768 columns. -/
theorem rowsum_eq (P0 P1 : Vec Ideal S2048x768 .f32) (p : Fin 2048) :
    (multiReduction (F := Ideal) .add [1] S2048 (mulf (mulf (broadcast S2048x768 (Scalar.ofBits .f32 0x3F000000#32)) (subf P0 P1)) (mulf (broadcast S2048x768 (Scalar.ofBits .f32 0x3F000000#32)) (subf P0 P1))) 0x00000000#32 reduces_S2048x768_S2048 (.inl rfl) rfl) (ix1 p)
      = Cert.Blend.halfSq P0 P1 p := by
  refine (Ideal.multiReduction_add_single _ _ reduces_S2048x768_S2048 _ _ (ix1 p)).trans ?_
  unfold Cert.Blend.halfSq
  refine Finset.sum_congr rfl fun k _ => ?_
  have hk : reduces_S2048x768_S2048.lift (ix1 p) k = ix2 p (⟨k.val, k.isLt⟩ : Fin 768) :=
    funext fun a => Fin.ext (by match a with | ⟨0, _⟩ => rfl | ⟨1, _⟩ => rfl)
  rw [hk]
  rfl

/-- A reduced-row index built from the first coordinate of `(p, q)` is row `p`. -/
theorem row_of (f : S2048x768.Idx → S2048.Idx) (hf : ∀ y, ((f y) 0).val = (y 0).val) (p : Fin 2048) (q : Fin 768) :
    f (ix2 p q) = ix1 p :=
  funext fun a => Fin.ext (by match a with | ⟨0, _⟩ => exact hf (ix2 p q))

/-- The block a grid point leaves, read at `(p, q)`, is the blend of the two loaded blocks there. -/
theorem block_eq (P0 P1 : Vec Ideal S2048x768 .f32) (p : Fin 2048) (q : Fin 768) :
    Cert.KernelIdeal.Value.E2 (F := Ideal) P0 P1 (ix2 p q) = Cert.Blend.fused P0 P1 (ix2 p q) := by
  have e6 : Cert.KernelIdeal.Value.ix2_6 (ix2 p q) = ix2 p q :=
    funext fun a => Fin.ext (by match a with | ⟨0, _⟩ => rfl | ⟨1, _⟩ => rfl)
  have e13 : Cert.KernelIdeal.Value.ix2_13 (ix2 p q) = ix2 p q :=
    funext fun a => Fin.ext (by match a with | ⟨0, _⟩ => rfl | ⟨1, _⟩ => rfl)
  unfold Cert.KernelIdeal.Value.E2
  rw [e6, e13,
    row_of Cert.KernelIdeal.Value.ix2_0 (fun _ => rfl) p q, row_of Cert.KernelIdeal.Value.ix2_1 (fun _ => rfl) p q,
    row_of Cert.KernelIdeal.Value.ix2_2 (fun _ => rfl) p q, row_of Cert.KernelIdeal.Value.ix2_3 (fun _ => rfl) p q,
    row_of Cert.KernelIdeal.Value.ix2_4 (fun _ => rfl) p q, row_of Cert.KernelIdeal.Value.ix2_5 (fun _ => rfl) p q,
    row_of Cert.KernelIdeal.Value.ix2_7 (fun _ => rfl) p q, row_of Cert.KernelIdeal.Value.ix2_8 (fun _ => rfl) p q,
    row_of Cert.KernelIdeal.Value.ix2_9 (fun _ => rfl) p q, row_of Cert.KernelIdeal.Value.ix2_10 (fun _ => rfl) p q,
    row_of Cert.KernelIdeal.Value.ix2_11 (fun _ => rfl) p q, row_of Cert.KernelIdeal.Value.ix2_12 (fun _ => rfl) p q,
    rowsum_eq P0 P1 p]
  rfl

end Cert.KernelIdeal.Blend

end
-- ==== Proof.KernelArray.lean ====
/-
  From blocks to the array. Grid point `t` (of 64) stages rows `2048·t … 2048·t + 2047` of both arguments and writes the
  same rows of the result; every block spans all 768 columns. The blend at `(r, q)` depends only on row `r` of the
  arguments, so what point `t` writes back is block `t` of the blend of the whole arrays, and the 64 blocks cover the
  result: row `r` lies in the block of point `r / 2048`.
-/
import proofs.«170354_j51127290692324_1_alg».proof.Proof.KernelBlock
import Idealize.ShloMosaic.Lib.Pipeline.Value

noncomputable section

namespace Cert.KernelIdeal.Blend

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- All three windows sit at block `(t, 0)` at grid point `t`. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The first argument's block at point `t`, at `(p, q)`, is the argument at `(2048·t + p, q)`. -/
theorem rows_arg0 (c : Dev nD) (t : Fin cfg0.N) (j : S2048x768.Idx) (i : S131072x768.Idx)
    (h0 : (i 0).val = t.val * 2048 + (j 0).val) (h1 : (i 1).val = (j 1).val) :
    (iblk m c 0 t : Vec Ideal S2048x768 .f32) j = (V m c main_arg0 : S131072x768.Idx → EReal) i := by
  obtain ⟨e0, e1, -⟩ := block_index t
  unfold iblk
  rw [View.read_apply]
  show (V m c main_arg0 : S131072x768.Idx → EReal) _ = (V m c main_arg0 : S131072x768.Idx → EReal) i
  refine congrArg (V m c main_arg0 : S131072x768.Idx → EReal) ?_
  funext a
  apply Fin.ext
  match a with
  | ⟨0, _⟩ => show win0_0.index t (0 : Fin 2) * 2048 + 1 * (j 0).val = (i 0).val; rw [e0, h0]; omega
  | ⟨1, _⟩ => show win0_0.index t (1 : Fin 2) * 768 + 1 * (j 1).val = (i 1).val; rw [e1, h1]; omega

/-- The second argument's block likewise. -/
theorem rows_arg1 (c : Dev nD) (t : Fin cfg0.N) (j : S2048x768.Idx) (i : S131072x768.Idx)
    (h0 : (i 0).val = t.val * 2048 + (j 0).val) (h1 : (i 1).val = (j 1).val) :
    (iblk m c 1 t : Vec Ideal S2048x768 .f32) j = (V m c main_arg1 : S131072x768.Idx → EReal) i := by
  obtain ⟨-, -, e0, e1, -⟩ := block_index t
  unfold iblk
  rw [View.read_apply]
  show (V m c main_arg1 : S131072x768.Idx → EReal) _ = (V m c main_arg1 : S131072x768.Idx → EReal) i
  refine congrArg (V m c main_arg1 : S131072x768.Idx → EReal) ?_
  funext a
  apply Fin.ext
  match a with
  | ⟨0, _⟩ => show win0_1.index t (0 : Fin 2) * 2048 + 1 * (j 0).val = (i 0).val; rw [e0, h0]; omega
  | ⟨1, _⟩ => show win0_1.index t (1 : Fin 2) * 768 + 1 * (j 1).val = (i 1).val; rw [e1, h1]; omega

/-- What the body leaves from two blocks that are rows `2048·n …` of two arrays is, entry by entry, the blend of the
    arrays at the corresponding row. -/
theorem point_eq (X Y : S131072x768.Idx → EReal) (b0 b1 : Vec Ideal S2048x768 .f32) (n : ℕ)
    (h0 : ∀ (j : S2048x768.Idx) (i : S131072x768.Idx), (i 0).val = n * 2048 + (j 0).val → (i 1).val = (j 1).val → b0 j = X i)
    (h1 : ∀ (j : S2048x768.Idx) (i : S131072x768.Idx), (i 0).val = n * 2048 + (j 0).val → (i 1).val = (j 1).val → b1 j = Y i)
    (j : S2048x768.Idx) (i : S131072x768.Idx) (hi0 : (i 0).val = n * 2048 + (j 0).val) (hi1 : (i 1).val = (j 1).val) :
    (View.canon [⟨r0_0, k0_pay1 (F := Ideal) b0 b1⟩] : Vec Ideal S2048x768 .f32) j = Cert.Blend.fused X Y i := by
  obtain ⟨p, q, rfl⟩ : ∃ (p : Fin 2048) (q : Fin 768), j = ix2 p q := ⟨j 0, j 1, eq_ix2 j⟩
  obtain ⟨r, q', rfl⟩ : ∃ (r : Fin 131072) (q' : Fin 768), i = ix2 r q' := ⟨i 0, i 1, eq_ix2 i⟩
  obtain rfl : q' = q := Fin.ext hi1
  rw [Cert.KernelIdeal.Value.canon2_eq, block_eq]
  exact Cert.Blend.fused_congr b0 b1 X Y p r q' (fun k => h0 (ix2 p k) (ix2 r k) hi0 rfl) (fun k => h1 (ix2 p k) (ix2 r k) hi0 rfl)

/-- What point `t` writes back is block `t` of the blend of the argument arrays. -/
theorem flushed_eq (c : Dev nD) (t : Fin cfg0.N) :
    (dats m 0 c).flushed 2 t
      = ((cfg0.win 2).blk t).view.read (Elt Ideal) (Cert.Blend.fused (V m c main_arg0 : S131072x768.Idx → EReal) (V m c main_arg1 : S131072x768.Idx → EReal)) := by
  show (cfg0.win 2).cut (grid0.coords t) ((dats m 0 c).after 2 t) = _
  rw [after0_2]
  unfold out0_2
  simp only [View.ld_unit_zero (S := S2048x768) origin_zero]
  obtain ⟨-, -, -, -, e0, e1⟩ := block_index t
  funext j
  show (View.canon [⟨r0_0, k0_pay1 (F := Ideal) (iblk m c 0 t) (iblk m c 1 t)⟩] : Vec Ideal S2048x768 .f32) j
      = Cert.Blend.fused (V m c main_arg0 : S131072x768.Idx → EReal) (V m c main_arg1 : S131072x768.Idx → EReal) (((cfg0.win 2).blk t).view.emb j)
  refine point_eq (V m c main_arg0) (V m c main_arg1) (iblk m c 0 t) (iblk m c 1 t) t.val (rows_arg0 m c t) (rows_arg1 m c t) j
    (((cfg0.win 2).blk t).view.emb j) ?_ ?_
  · show win0_2.index t (0 : Fin 2) * 2048 + 1 * (j 0).val = t.val * 2048 + (j 0).val
    rw [e0]; omega
  · show win0_2.index t (1 : Fin 2) * 768 + 1 * (j 1).val = (j 1).val
    rw [e1]; omega

/-- An index of the result is in point `t`'s block iff each coordinate is in the block's range on its axis. -/
theorem mem_block (t : Fin cfg0.N) (i : S131072x768.Idx) :
    i ∈ ((cfg0.win 2).blk t).view.set ↔ ∀ a : Fin 2, win0_2.index t a * S2048x768.size a ≤ (i a).val
      ∧ (i a).val < win0_2.index t a * S2048x768.size a + S2048x768.size a := by
  show i ∈ ((View.whole main_v0).slice (win0_2.rect t)).set ↔ _
  rw [View.set_slice_whole, Rect.mem_set_unit]
  exact Iff.rfl

/-- Every index of the result lies in the block of the point its row falls in. -/
theorem covered (i : S131072x768.Idx) :
    ∃ t : Fin cfg0.N, (cfg0.win 2).flush t = true ∧ i ∈ ((cfg0.win 2).blk t).view.set := by
  have hi0 : (i 0).val < 131072 := (i 0).isLt
  have hi1 : (i 1).val < 768 := (i 1).isLt
  have hN : cfg0.N = 64 := N_0
  have ht : (i 0).val / 2048 < cfg0.N := by rw [hN]; omega
  obtain ⟨-, -, -, -, e0, e1⟩ := block_index ⟨(i 0).val / 2048, ht⟩
  have e0' : win0_2.index ⟨(i 0).val / 2048, ht⟩ (0 : Fin 2) = (i 0).val / 2048 := e0
  refine ⟨⟨(i 0).val / 2048, ht⟩, flush0_2 _, ?_⟩
  rw [mem_block]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e0']; omega
  | ⟨1, _⟩ =>
    show win0_2.index ⟨(i 0).val / 2048, ht⟩ (1 : Fin 2) * 768 ≤ (i 1).val
      ∧ (i 1).val < win0_2.index ⟨(i 0).val / 2048, ht⟩ (1 : Fin 2) * 768 + 768
    rw [e1]; omega

/-- The result array after the run is the blend of the two arguments as launched. -/
theorem final (c : Dev nD) :
    (dats m 0 c).arrAt 2 cfg0.N
      = Cert.Blend.fused (m ((c : Thread nD τ).loc main_arg0) : S131072x768.Idx → EReal) (m ((c : Thread nD τ).loc main_arg1) : S131072x768.Idx → EReal) :=
  (dats m 0 c).arrAt_eq_of_cover 2
    (Cert.Blend.fused (V m c main_arg0 : S131072x768.Idx → EReal) (V m c main_arg1 : S131072x768.Idx → EReal))
    (fun t _ => flushed_eq m c t) (fun i => covered i)

/-- The kernel's run, read: the result at the blend of the arguments, the arguments unchanged. -/
theorem run : θ_run defs (onTc (τ := τ) (main (F := Ideal))) ⟨m, fun _ => 0, ρ⟩ fun r => ∀ c : Dev nD,
      r.2.mem ((c : Thread nD τ).loc main_v0)
        = Cert.Blend.fused (m ((c : Thread nD τ).loc main_arg0) : S131072x768.Idx → EReal) (m ((c : Thread nD τ).loc main_arg1) : S131072x768.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Blend

end
-- ==== Proof.RefBlend.lean ====
/-
  The reference program's result is the fused row blend of its two arguments.

  The reference computes each row's log-responsibility `a r`, stacks it twice, takes the column maximum of the stack from
  `-∞` (again `a r`: both entries are equal), subtracts it, exponentiates, and divides by the column sum of the two
  exponentials from `0`; row 0 of the quotient is the weight. Read at an index, stage by stage, that is
  `e^(a r - a r) / (e^(a r - a r) + e^(a r - a r))`, the weight the kernel forms.
-/
import proofs.«170354_j51127290692324_1_alg».proof.Proof.Gen.ReferenceIdeal.Read
import proofs.«170354_j51127290692324_1_alg».proof.Proof.Blend
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Blend

open Cert.ReferenceIdeal Cert.ReferenceIdeal.Gen Cert.ReferenceIdeal.Read Idealize.ShloMosaic Idealize.ShloMosaic.ValueIdx
open Cert.Blend (halfSq logResp weight fused)

variable (x0 x1 : (⟨S131072x768, .f32⟩ : BufTy).Contents (Elt Ideal))

/-- The row sum of the squared half-differences: the host's sum starts from the zero word. -/
theorem v4_row (r : Fin 131072) : val_main_v4 (F := Ideal) x0 x1 (ix1 r) = halfSq x0 x1 r := by
  rw [val_main_v4_apply, val_main_cst_0_apply]
  simp only [Ideal.ofBits_def, Ideal.ofBits_zero_f32, zero_add]
  unfold Cert.Blend.halfSq
  refine Finset.sum_congr rfl fun k _ => ?_
  have hk : idx_main_v4 (ix1 r) k = ix2 r k :=
    funext fun a => Fin.ext (by match a with | ⟨0, _⟩ => rfl | ⟨1, _⟩ => rfl)
  rw [hk, val_main_v3_apply, val_main_v2_apply, val_main_v1_apply, val_main_v0_apply, val_main_cst_apply]
  rfl

/-- The row's log-responsibility. -/
theorem v6_row (r : Fin 131072) : val_main_v6 (F := Ideal) x0 x1 (ix1 r) = logResp x0 x1 r := by
  rw [val_main_v6_apply, val_main_v5_apply, val_main_cst_1_apply, v4_row]
  rfl

/-- Either operand of the stack, at row `r`, is the log-responsibility. -/
theorem v7_at (r : Fin 131072) : val_main_v7 (F := Ideal) x0 x1 (ix2 (0 : Fin 1) r) = logResp x0 x1 r := by
  rw [val_main_v7_apply, show idx_main_v7 (ix2 (0 : Fin 1) r) = ix1 r from
    funext fun a => Fin.ext (by match a with | ⟨0, _⟩ => rfl), v6_row]

theorem v8_at (r : Fin 131072) : val_main_v8 (F := Ideal) x0 x1 (ix2 (0 : Fin 1) r) = logResp x0 x1 r := by
  rw [val_main_v8_apply, show idx_main_v8 (ix2 (0 : Fin 1) r) = ix1 r from
    funext fun a => Fin.ext (by match a with | ⟨0, _⟩ => rfl), v6_row]

/-- Row 0 of the stacked pair is the first operand. -/
theorem v9_row0 (r : Fin 131072) : val_main_v9 (F := Ideal) x0 x1 (ix2 (0 : Fin 2) r) = logResp x0 x1 r := by
  unfold val_main_v9
  exact (concatenate_pair_apply_left (t := S2x131072) (s₁ := S1x131072) (s₂ := S1x131072) (0 : Fin 2)
    (val_main_v7 (F := Ideal) x0 x1) (val_main_v8 (F := Ideal) x0 x1) concatenates_S1x131072_S1x131072_S2x131072_d0
    (ix2 (0 : Fin 2) r) rfl (ix2 (0 : Fin 1) r)
    (fun b => by match b with | ⟨0, _⟩ => rfl | ⟨1, _⟩ => rfl)).trans (v7_at x0 x1 r)

/-- Row 1 of the stacked pair is the second operand. -/
theorem v9_row1 (r : Fin 131072) : val_main_v9 (F := Ideal) x0 x1 (ix2 (1 : Fin 2) r) = logResp x0 x1 r := by
  unfold val_main_v9
  exact (concatenate_pair_apply_right (t := S2x131072) (s₁ := S1x131072) (s₂ := S1x131072) (0 : Fin 2)
    (val_main_v7 (F := Ideal) x0 x1) (val_main_v8 (F := Ideal) x0 x1) concatenates_S1x131072_S1x131072_S2x131072_d0
    (ix2 (1 : Fin 2) r) rfl rfl (ix2 (0 : Fin 1) r)
    (fun b hb => by match b with | ⟨0, _⟩ => exact absurd rfl hb | ⟨1, _⟩ => rfl) rfl).trans (v8_at x0 x1 r)

/-- Both rows of the stacked pair hold the log-responsibilities. -/
theorem v9_at (s : Fin 2) (r : Fin 131072) : val_main_v9 (F := Ideal) x0 x1 (ix2 s r) = logResp x0 x1 r := by
  match s with
  | ⟨0, _⟩ => exact v9_row0 x0 x1 r
  | ⟨1, _⟩ => exact v9_row1 x0 x1 r

/-- The column maximum of the stacked pair, from `-∞`, is the log-responsibility. -/
theorem v10_row (r : Fin 131072) : val_main_v10 (F := Ideal) x0 x1 (ix1 r) = logResp x0 x1 r := by
  have hred : S2x131072.Reduces [0] S131072 := by decide
  unfold val_main_v10
  refine (Host.reduce_eq_fold_single FloatOps.maximumf _ _ reducesTo_S2x131072_S131072_d0 hred h_S_ (ix1 r)).trans ?_
  have hinit : val_main_cst_2 (F := Ideal) (Shape.Idx.first h_S_) = (⊥ : EReal) := Cert.Blend.ofBits_negInf
  rw [hinit]
  exact Cert.Blend.fold_max_pair _ _ fun k => by
    have hk : hred.lift (ix1 r) k = ix2 (⟨k.val, k.isLt⟩ : Fin 2) r :=
      funext fun a => Fin.ext (by match a with | ⟨0, _⟩ => rfl | ⟨1, _⟩ => rfl)
    show val_main_v9 (F := Ideal) x0 x1 (hred.lift (ix1 r) k) = _
    rw [hk]
    exact v9_at x0 x1 _ r

/-- Taking the maximum with `-∞` once more changes nothing. -/
theorem v12_row (r : Fin 131072) : val_main_v12 (F := Ideal) x0 x1 (ix1 r) = logResp x0 x1 r := by
  rw [val_main_v12_apply, val_main_v11_apply, val_main_cst_3_apply, v10_row]
  show max (Ideal.ofBits .f32 0xFF800000#32 : EReal) _ = _
  rw [Cert.Blend.ofBits_negInf]
  exact max_eq_right bot_le

/-- The shifted pair. -/
theorem v15_at (s : Fin 2) (r : Fin 131072) :
    val_main_v15 (F := Ideal) x0 x1 (ix2 s r) = logResp x0 x1 r - logResp x0 x1 r := by
  rw [val_main_v15_apply, v9_at, val_main_v14_apply, val_main_v13_apply,
    show idx_main_v13 (idx_main_v14 (ix2 s r)) = ix1 r from
      funext fun a => Fin.ext (by match a with | ⟨0, _⟩ => rfl), v12_row]
  rfl

/-- Its exponential. -/
theorem v16_at (s : Fin 2) (r : Fin 131072) :
    val_main_v16 (F := Ideal) x0 x1 (ix2 s r) = Ideal.exp (logResp x0 x1 r - logResp x0 x1 r) := by
  rw [val_main_v16_apply, v15_at]
  rfl

/-- The column sum of the two exponentials, from the zero word. -/
theorem v17_row (r : Fin 131072) :
    val_main_v17 (F := Ideal) x0 x1 (ix1 r)
      = Ideal.exp (logResp x0 x1 r - logResp x0 x1 r) + Ideal.exp (logResp x0 x1 r - logResp x0 x1 r) := by
  rw [val_main_v17_apply, val_main_cst_4_apply, Fin.sum_univ_two,
    show idx_main_v17 (ix1 r) (0 : Fin 2) = ix2 (0 : Fin 2) r from
      funext fun a => Fin.ext (by match a with | ⟨0, _⟩ => rfl | ⟨1, _⟩ => rfl),
    show idx_main_v17 (ix1 r) (1 : Fin 2) = ix2 (1 : Fin 2) r from
      funext fun a => Fin.ext (by match a with | ⟨0, _⟩ => rfl | ⟨1, _⟩ => rfl),
    v16_at, v16_at]
  simp only [Ideal.ofBits_def, Ideal.ofBits_zero_f32, zero_add]

/-- The softmax of the pair: both rows hold the weight. -/
theorem v20_at (s : Fin 2) (r : Fin 131072) :
    val_main_v20 (F := Ideal) x0 x1 (ix2 s r) = weight (logResp x0 x1 r) := by
  rw [val_main_v20_apply, v16_at, val_main_v19_apply, val_main_v18_apply,
    show idx_main_v18 (idx_main_v19 (ix2 s r)) = ix1 r from
      funext fun a => Fin.ext (by match a with | ⟨0, _⟩ => rfl), v17_row]
  rfl

/-- Row 0 of it, as a vector over the rows. -/
theorem v22_row (r : Fin 131072) : val_main_v22 (F := Ideal) x0 x1 (ix1 r) = weight (logResp x0 x1 r) := by
  rw [val_main_v22_apply, val_main_v21_apply,
    show idx_main_v21 (idx_main_v22 (ix1 r)) = ix2 (0 : Fin 2) r from
      funext fun a => Fin.ext (by
        match a with
        | ⟨0, _⟩ => rfl
        | ⟨1, _⟩ => exact Nat.mod_eq_of_lt r.isLt), v20_at]

/-- The weight broadcast along each row. -/
theorem v24_at (r : Fin 131072) (q : Fin 768) :
    val_main_v24 (F := Ideal) x0 x1 (ix2 r q) = weight (logResp x0 x1 r) := by
  rw [val_main_v24_apply, val_main_v23_apply,
    show idx_main_v23 (idx_main_v24 (ix2 r q)) = ix1 r from
      funext fun a => Fin.ext (by match a with | ⟨0, _⟩ => rfl), v22_row]

/-- Its complement to one, broadcast along each row. -/
theorem v29_at (r : Fin 131072) (q : Fin 768) :
    val_main_v29 (F := Ideal) x0 x1 (ix2 r q) = (Ideal.ofBits .f32 0x3F800000#32 : EReal) - weight (logResp x0 x1 r) := by
  rw [val_main_v29_apply, val_main_v28_apply,
    show idx_main_v28 (idx_main_v29 (ix2 r q)) = ix1 r from
      funext fun a => Fin.ext (by match a with | ⟨0, _⟩ => rfl),
    val_main_v27_apply, val_main_v26_apply, val_main_cst_5_apply, v22_row]
  rfl

/-- The reference's result is the blend. -/
theorem ref_eq : val_main_v31 (F := Ideal) x0 x1 = fused x0 x1 := by
  funext i
  obtain ⟨r, q, rfl⟩ : ∃ (r : Fin 131072) (q : Fin 768), i = ix2 r q := ⟨i 0, i 1, eq_ix2 i⟩
  rw [val_main_v31_apply, val_main_v25_apply, val_main_v30_apply, v24_at, v29_at, Cert.Blend.fused_ix2]
  rfl

end Cert.ReferenceIdeal.Blend

end
-- ==== Proof.lean ====
/-
  The fused row blend: for two arrays `x`, `y` of 131072 rows by 768 columns, row `r` has the log-responsibility
  `a r = -1/2 · Σ_k (1/2 · (x r k - y r k))²`, the weight `w r` is the first entry of the two-way softmax of the pair
  `(a r, a r)`, and the result is `w r · x r q + (1 - w r) · y r q`.

  The kernel computes it block by block, 2048 rows at a time over 64 grid points, forming `w` in one row-wise pass
  (`e / (e + e)` with `e = exp (a - a)`); the reference stacks `a` twice, subtracts the column maximum taken from `-∞`,
  exponentiates, and normalises by the column sum taken from `0`. Over the extended reals the maximum of two equal
  entries and `-∞` is the entry, and `0 + s = s`, so the two weights are one expression and no value is ever evaluated;
  the precondition is not needed for the value. The blend at `(r, q)` reads only row `r` of the arguments, so each block
  the kernel writes is the corresponding block of the blend of the whole arrays, and the 64 blocks cover the result.

  The idealization rewrote nothing, so `preserves` is trivial. The two kernel frames are the generated frames; the
  reference's frame is its run with the result dropped.
-/
import proofs.«170354_j51127290692324_1_alg».proof.Defs
import proofs.«170354_j51127290692324_1_alg».proof.Proof.Gen.Kernel
import proofs.«170354_j51127290692324_1_alg».proof.Proof.Gen.Kernel.Skeleton
import proofs.«170354_j51127290692324_1_alg».proof.Proof.Gen.Kernel.Launch
import proofs.«170354_j51127290692324_1_alg».proof.Proof.Gen.Kernel.Points
import proofs.«170354_j51127290692324_1_alg».proof.Proof.Gen.Kernel.Frame
import proofs.«170354_j51127290692324_1_alg».proof.Proof.Gen.KernelIdeal
import proofs.«170354_j51127290692324_1_alg».proof.Proof.Gen.KernelIdeal.Skeleton
import proofs.«170354_j51127290692324_1_alg».proof.Proof.Gen.KernelIdeal.Launch
import proofs.«170354_j51127290692324_1_alg».proof.Proof.Gen.KernelIdeal.Points
import proofs.«170354_j51127290692324_1_alg».proof.Proof.Gen.KernelIdeal.Frame
import proofs.«170354_j51127290692324_1_alg».proof.Proof.Gen.ReferenceIdeal
import proofs.«170354_j51127290692324_1_alg».proof.Proof.Gen.Pre_finite_inputs
import proofs.«170354_j51127290692324_1_alg».proof.Proof.Gen.KernelIdeal.Value
import proofs.«170354_j51127290692324_1_alg».proof.Proof.Gen.ReferenceIdeal.Run
import proofs.«170354_j51127290692324_1_alg».proof.Proof.Gen.ReferenceIdeal.Read
import proofs.«170354_j51127290692324_1_alg».proof.Proof.Blend
import proofs.«170354_j51127290692324_1_alg».proof.Proof.KernelBlock
import proofs.«170354_j51127290692324_1_alg».proof.Proof.KernelArray
import proofs.«170354_j51127290692324_1_alg».proof.Proof.RefBlend
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the blend of the (agreeing) arguments in their result. -/
theorem algebraic : Cert.algebraic_KernelIdeal_ReferenceIdeal := by
  intro m ρ m' ρ' _ hagree
  refine ⟨fun c => Cert.Blend.fused
      (m ((c.tc : Thread Cert.KernelIdeal.nD Cert.KernelIdeal.τ).loc Cert.KernelIdeal.main_arg0) : Cert.KernelIdeal.S131072x768.Idx → EReal)
      (m ((c.tc : Thread Cert.KernelIdeal.nD Cert.KernelIdeal.τ).loc Cert.KernelIdeal.main_arg1) : Cert.KernelIdeal.S131072x768.Idx → EReal),
    Cert.KernelIdeal.Blend.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.Blend.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
